-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  reducesTo_S_S_d : S_.ReducesTo [] S_

variable [Facts]

def fn {F : FTy → Type} [FloatOps F] (main_arg0 : FVec F S65536x1024 .f32) (main_arg1 : FVec F S65536x1024 .f32) (main_arg2 : FVec F S_ .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S65536x1024 : Shape := ⟨2, ![65536, 1024]⟩
abbrev S_ : Shape := ⟨0, ![]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 19
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S_, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S_, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S65536x1024_S_d0_1 : S65536x1024.ReducesTo [0, 1] S_
  h_S_ : 0 < S_.numel

variable [Facts₀]

class Facts : Prop extends Facts₀ where

variable [Facts]
-- ==== Proof.LibCoveredLoad.lean ====
/-
  A load of a whole buffer, taken after a store that overwrote the whole buffer, reads that store's payload,
  whatever had been stored there before.
-/
import Idealize.ShloMosaic.Lib.Pipeline.Value

noncomputable section

namespace Idealize.ShloMosaic.View

variable {Val : EltTy → Type} {S : Shape} {e : EltTy}

/-- Among stores listed last first, let the last one go through the whole-shape rectangle at zero offsets with
    payload `w`. A load through the same rectangle then reads `w`: the earlier stores `L` lie beneath it and are
    not seen. (With `L` empty this is the library's `readCov_unit_zero`.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Pieces.lean ====
/-
  What one grid point leaves behind, read as values.

  The body keeps a running total in a one-element scratch buffer. At the first grid point it stores zero there;
  at every point it then loads the two input blocks `a`, `b`, forms the block total of `(a - b)²`, adds it to the
  scratch's contents and stores the sum back; last it copies the scratch into the one-element output block.
  So after a point both the scratch and the output block hold
      previous total + block total,
  with "previous total" the stored zero at the first point. The block total's arithmetic is the body's one pure
  term (`k0_pay2`); the stored zero is `k0_pay1`. The four lemmas below say this of the two control cases (first
  point / later point) and of the two buffers, for any float instance.
-/
import proofs.«165593_j14628658610180_1_alg».proof.Proof.Gen.KernelIdeal.Frame
import proofs.«165593_j14628658610180_1_alg».proof.Proof.LibCoveredLoad
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Carried

open Cert.KernelIdeal Cert.KernelIdeal.Gen

variable {F : FTy → Type} [FloatOps F]

/-- The zero offsets of a whole one-element or whole-block access. -/
theorem zeroOffsets : (![0, 0] : Fin 2 → Nat) = fun _ => 0 := funext fun a => by fin_cases a <;> rfl

/-- A later point, the scratch: its one store writes the previous total `prev` plus the block total of `a`, `b`. -/
theorem scratch_later (c : Dev nD) (i : grid0.Coords) (oRef : Memref sig .tc .vmem S1024x1024 .f32) (hoRef : oRef.IsWhole) (xRef : Memref sig .tc .vmem S1024x1024 .f32) (hxRef : xRef.IsWhole) (outRef : Memref sig .tc .vmem S1x1 .f32) (houtRef : outRef.IsWhole) (accRef : Memref sig .tc .vmem S1x1 .f32) (haccRef : accRef.IsWhole) (hc : ¬cond0_0 i)
    (a b : Vec F S1024x1024 .f32) (prev : Vec F S1x1 .f32) :
    sout0_B_0 c i oRef hoRef xRef hxRef outRef houtRef accRef haccRef hc a b prev = k0_pay2 a b prev := by
  unfold sout0_B_0
  rw [View.read_writes_eq_canon _ _ _ (scover0_B_0 c i oRef hoRef xRef hxRef outRef houtRef accRef haccRef hc a b prev)]
  unfold kernelRun0_B
  dsimp only
  sl_unfold_words
  rw [View.canon_unit_zero zeroOffsets]
  simp only [View.readAt_eq_ld, hoRef.read_unread, hxRef.read_unread, haccRef.read_unread,
    View.ld_unit_zero (S := S1024x1024) zeroOffsets, View.ld_unit_zero (S := S1x1) zeroOffsets]

/-- A later point, the output block: the copy of the scratch just written. -/
theorem output_later (c : Dev nD) (i : grid0.Coords) (oRef : Memref sig .tc .vmem S1024x1024 .f32) (hoRef : oRef.IsWhole) (xRef : Memref sig .tc .vmem S1024x1024 .f32) (hxRef : xRef.IsWhole) (outRef : Memref sig .tc .vmem S1x1 .f32) (houtRef : outRef.IsWhole) (accRef : Memref sig .tc .vmem S1x1 .f32) (haccRef : accRef.IsWhole) (hc : ¬cond0_0 i)
    (a b : Vec F S1024x1024 .f32) (prev : Vec F S1x1 .f32) :
    out0_B_2 c i oRef hoRef xRef hxRef outRef houtRef accRef haccRef hc a b prev = k0_pay2 a b prev := by
  unfold out0_B_2
  rw [View.read_writes_eq_canon _ _ _ (cover0_B_2 c i oRef hoRef xRef hxRef outRef houtRef accRef haccRef hc a b prev)]
  unfold kernelRun0_B
  dsimp only
  sl_unfold_words
  rw [View.canon_unit_zero (S := S1x1) zeroOffsets, View.readCov_unit_zero (S := S1x1) _ zeroOffsets]
  simp only [View.readAt_eq_ld, hoRef.read_unread, hxRef.read_unread, haccRef.read_unread,
    View.ld_unit_zero (S := S1024x1024) zeroOffsets, View.ld_unit_zero (S := S1x1) zeroOffsets]

/-- The first point, the scratch: zero is stored, read back, and the block total added to it. -/
theorem scratch_first (c : Dev nD) (i : grid0.Coords) (oRef : Memref sig .tc .vmem S1024x1024 .f32) (hoRef : oRef.IsWhole) (xRef : Memref sig .tc .vmem S1024x1024 .f32) (hxRef : xRef.IsWhole) (outRef : Memref sig .tc .vmem S1x1 .f32) (houtRef : outRef.IsWhole) (accRef : Memref sig .tc .vmem S1x1 .f32) (haccRef : accRef.IsWhole) (hc : cond0_0 i)
    (a b : Vec F S1024x1024 .f32) :
    sout0_A_0 c i oRef hoRef xRef hxRef outRef houtRef accRef haccRef hc a b = k0_pay2 a b (k0_pay1 (F := F)) := by
  unfold sout0_A_0
  rw [View.read_writes_eq_canon _ _ _ (scover0_A_0 c i oRef hoRef xRef hxRef outRef houtRef accRef haccRef hc a b)]
  unfold kernelRun0_A
  dsimp only
  sl_unfold_words
  rw [View.canon_cons_unit_zero (S := S1x1) zeroOffsets, View.readCov_unit_zero (S := S1x1) _ zeroOffsets]
  simp only [View.readAt_eq_ld, hoRef.read_unread, hxRef.read_unread,
    View.ld_unit_zero (S := S1024x1024) zeroOffsets]

/-- The first point, the output block: the copy of that scratch. -/
theorem output_first (c : Dev nD) (i : grid0.Coords) (oRef : Memref sig .tc .vmem S1024x1024 .f32) (hoRef : oRef.IsWhole) (xRef : Memref sig .tc .vmem S1024x1024 .f32) (hxRef : xRef.IsWhole) (outRef : Memref sig .tc .vmem S1x1 .f32) (houtRef : outRef.IsWhole) (accRef : Memref sig .tc .vmem S1x1 .f32) (haccRef : accRef.IsWhole) (hc : cond0_0 i)
    (a b : Vec F S1024x1024 .f32) :
    out0_A_2 c i oRef hoRef xRef hxRef outRef houtRef accRef haccRef hc a b = k0_pay2 a b (k0_pay1 (F := F)) := by
  unfold out0_A_2
  rw [View.read_writes_eq_canon _ _ _ (cover0_A_2 c i oRef hoRef xRef hxRef outRef houtRef accRef haccRef hc a b)]
  unfold kernelRun0_A
  dsimp only
  sl_unfold_words
  rw [View.canon_unit_zero (S := S1x1) zeroOffsets, View.readCov_cons_unit_zero (S := S1x1) _ zeroOffsets,
    View.readCov_unit_zero (S := S1x1) _ zeroOffsets]
  simp only [View.readAt_eq_ld, hoRef.read_unread, hxRef.read_unread,
    View.ld_unit_zero (S := S1024x1024) zeroOffsets]

end Cert.KernelIdeal.Carried

end
-- ==== Proof.LibKeepdimsColumn.lean ====
/-
  A vector of `n` entries reshaped to a column `[n, 1]` (what a row reduction with keepdims leaves): the entry at
  `(k, 0)` of the column is entry `k` of the vector. Both sit at row-major position `k`.
-/
import Idealize.ShloMosaic.Lib.ValueIdx
import Idealize.ShloMosaic.Lib.Pipeline.Value

namespace Idealize.ShloMosaic.ValueIdx

variable {α : Type}

/-- An `[n]` array cast to `[n, 1]` reads, at `(k, u)`, the operand at `k`, whatever the unit coordinate `u`.
    (With `n = 1` this is also the cast `[1] → [1, 1]`.) -/
theorem shapeCast_a_a1_apply {n : ℕ} (x : (⟨1, ![n]⟩ : Shape).Idx → α) (h : (⟨1, ![n]⟩ : Shape).ShapeCasts ⟨2, ![n, 1]⟩)
    (k : Fin n) (u : Fin 1) : shapeCast ⟨2, ![n, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Idealize.ShloMosaic.ValueIdx
-- ==== Proof.BlockTotal.lean ====
/-
  The body's arithmetic at the ideal instance.

  With `a`, `b` the two 1024 × 1024 input blocks and `prev` the previous total, the body's one pure term is
      prev + Σ_r Σ_l (a[r,l] − b[r,l])²
  over the extended reals: the difference and the square are pointwise; the first reduction adds each row's 1024
  lanes; its result, turned into a column, is added over the 1024 rows by the second; both start from the zero
  word, which denotes 0. The stored zero of the first grid point denotes 0 as well.
-/
import proofs.«165593_j14628658610180_1_alg».proof.Proof.Gen.KernelIdeal.Skeleton
import proofs.«165593_j14628658610180_1_alg».proof.Proof.LibKeepdimsColumn
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.BlockTotal

open Cert.KernelIdeal Cert.KernelIdeal.Gen

/-- The total of the squared differences of two 1024 × 1024 blocks, row by row, lane by lane. -/
def blockTotal (a b : FVec Ideal S1024x1024 .f32) : EReal :=
  ∑ r : Fin 1024, ∑ l : Fin 1024, (a (ix2 r l) - b (ix2 r l)) * (a (ix2 r l) - b (ix2 r l))

/-- The lane reduction of a 1024 × 1024 block: entry `r` is the sum of row `r`'s lanes. -/
theorem laneSum_apply (v : FVec Ideal S1024x1024 .f32) (r : Fin 1024) :
    multiReduction (F := Ideal) .add [1] S1024 v 0x00000000#32 reduces_S1024x1024_S1024 (.inl rfl) rfl (ix1 r)
      = ∑ l : Fin 1024, v (ix2 r l) := by
  refine (Ideal.multiReduction_add_single v _ reduces_S1024x1024_S1024 _ _ (ix1 r)).trans ?_
  refine Finset.sum_congr rfl fun l _ => congrArg v (funext fun d => ?_)
  match d with
  | ⟨0, _⟩ => rfl
  | ⟨1, _⟩ => rfl

/-- The row reduction of a 1024 × 1 column: its one entry is the sum of the column's 1024 entries. -/
theorem rowSum_apply (v : FVec Ideal S1024x1 .f32) (u : Fin 1) :
    multiReduction (F := Ideal) .add [0] S1 v 0x00000000#32 reduces_S1024x1_S1 (.inl rfl) rfl (ix1 u)
      = ∑ r : Fin 1024, v (ix2 r u) := by
  refine (Ideal.multiReduction_add_single v _ reduces_S1024x1_S1 _ _ (ix1 u)).trans ?_
  refine Finset.sum_congr rfl fun r _ => congrArg v (funext fun d => ?_)
  match d with
  | ⟨0, _⟩ => rfl
  | ⟨1, _⟩ => rfl

/-- The zero stored at the first grid point denotes 0. -/
theorem stored_zero (j : S1x1.Idx) : (k0_pay1 (F := Ideal)) j = 0 := by
  unfold k0_pay1
  rw [shapeCast_self]
  exact Ideal.ofBits_zero_f32

/-- The body's term: the previous total plus the block total. -/
theorem total_step (a b : FVec Ideal S1024x1024 .f32) (prev : FVec Ideal S1x1 .f32) (j : S1x1.Idx) :
    k0_pay2 (F := Ideal) a b prev j = prev j + blockTotal a b := by
  obtain ⟨p, q, rfl⟩ : ∃ (p : Fin 1) (q : Fin 1), j = ix2 p q := ⟨j 0, j 1, eq_ix2 j⟩
  unfold k0_pay2
  rw [shapeCast_self]
  refine congrArg (prev (ix2 p q) + ·) ?_
  refine (shapeCast_a_a1_apply _ shapeCasts_S1_S1x1 p q).trans ?_
  refine (rowSum_apply _ p).trans ?_
  refine Finset.sum_congr rfl fun r _ => ?_
  refine (shapeCast_a_a1_apply _ shapeCasts_S1024_S1024x1 r p).trans ?_
  exact laneSum_apply _ r

end Cert.KernelIdeal.BlockTotal

end
-- ==== Proof.SumRegroup.lean ====
/-
  Regrouping the long sum.

  The reference adds the squared differences over every index (row, lane) of a [65536, 1024] array at once.
  The kernel walks the same array in 64 consecutive bands of 1024 rows: inside a band it first adds each
  row's 1024 lanes, then the band's 1024 row totals, and carries the running total from band to band.
  Row `1024·t + r` of the array is row `r` of band `t`, and every row is met exactly once this way, so in any
  commutative monoid — the extended reals under `+` are one, infinities included — the two are the same sum.
  Nothing here needs the summands to be finite.
-/
import Idealize.ShloMosaic.Lib.ValueIdx

open scoped BigOperators

namespace SquaredError

open Idealize.ShloMosaic Idealize.ShloMosaic.ValueIdx

/-- Row `r` of band `t`, as a row of the long array: row `1024·t + r`. -/
def bandRow (t : Fin 64) (r : Fin 1024) : Fin 65536 :=
  ⟨1024 * t.val + r.val, by have := t.isLt; have := r.isLt; omega⟩

theorem bandRow_val (t : Fin 64) (r : Fin 1024) : (bandRow t r).val = 1024 * t.val + r.val := rfl

/-- (band, row inside the band) ↔ row of the long array: quotient and remainder by 1024. -/
def bandEquiv : Fin 64 × Fin 1024 ≃ Fin 65536 where
  toFun p := bandRow p.1 p.2
  invFun q := (⟨q.val / 1024, by have := q.isLt; omega⟩, ⟨q.val % 1024, by omega⟩)
  left_inv p := by
    obtain ⟨t, r⟩ := p
    have ht := t.isLt
    have hr := r.isLt
    refine Prod.ext (Fin.ext ?_) (Fin.ext ?_)
    · show (1024 * t.val + r.val) / 1024 = t.val
      omega
    · show (1024 * t.val + r.val) % 1024 = r.val
      omega
  right_inv q := by
    apply Fin.ext
    show 1024 * (q.val / 1024) + q.val % 1024 = q.val
    omega

/-- A sum over the 65536 rows is the sum over the 64 bands of the sums over each band's 1024 rows. -/
theorem sum_rows_by_band {M : Type*} [AddCommMonoid M] (h : Fin 65536 → M) :
    ∑ p : Fin 65536, h p = ∑ t : Fin 64, ∑ r : Fin 1024, h (bandRow t r) := by
  rw [← Equiv.sum_comp bandEquiv h, Fintype.sum_prod_type]
  rfl

/-- The sum over every (row, lane) of the long array, band by band, row by row, lane by lane. -/
theorem sum_all_by_band {M : Type*} [AddCommMonoid M] (g : (⟨2, ![65536, 1024]⟩ : Shape).Idx → M) :
    ∑ i, g i = ∑ t : Fin 64, ∑ r : Fin 1024, ∑ l : Fin 1024, g (ix2 (bandRow t r) l) := by
  rw [sum_idx2, sum_rows_by_band]

/-- All 64 bands, counted by number, are the 64 bands. -/
theorem sum_range_64 {M : Type*} [AddCommMonoid M] (b : Fin 64 → M) :
    (∑ t ∈ Finset.range 64, (if h : t < 64 then b ⟨t, h⟩ else 0)) = ∑ t : Fin 64, b t := by
  rw [← Fin.sum_univ_eq_sum_range (fun t => if h : t < 64 then b ⟨t, h⟩ else 0) 64]
  refine Finset.sum_congr rfl fun t _ => ?_
  rw [dif_pos t.isLt]

end SquaredError
-- ==== Proof.Running.lean ====
/-
  The running total across the grid.

  Band `t` of the two long arrays is what the two input windows hold at grid point `t`: entry `(r, l)` of the
  block is entry `(1024·t + r, l)` of the array. By the previous modules each point leaves, in the scratch and in
  the output block alike, the previous total plus its band's total, starting from zero. By induction on the point
  (never by listing the 64 points) the total after point `n` is therefore the sum of the totals of bands `0 … n`.
-/
import proofs.«165593_j14628658610180_1_alg».proof.Proof.Pieces
import proofs.«165593_j14628658610180_1_alg».proof.Proof.BlockTotal
import proofs.«165593_j14628658610180_1_alg».proof.Proof.SumRegroup

noncomputable section

open scoped BigOperators
open Idealize.ShloMosaic Idealize.ShloMosaic.TcCoe Idealize.SL.Sem Idealize.ShloMosaic.ValueIdx

namespace Cert.KernelIdeal.Carried

open Cert.KernelIdeal Cert.KernelIdeal.Gen

/-! ## At any float instance: both buffers hold the same chain of the body's term -/

section AnyInstance

variable {F : FTy → Type} [FloatOps F]
variable (m : (ℓ : Loc nD τ sig) → Buf (Elt F) ℓ)

/-- The first input's block at point `t`. -/
abbrev oBlock (c : Dev nD) (t : Fin cfg0.N) : Vec F S1024x1024 .f32 := iblk m c 0 t
/-- The second input's block at point `t`. -/
abbrev xBlock (c : Dev nD) (t : Fin cfg0.N) : Vec F S1024x1024 .f32 := iblk m c 1 t
/-- The first long array as the region finds it. -/
abbrev oArray (c : Dev nD) : Vec F S65536x1024 .f32 := V m c main_arg0
/-- The second long array as the region finds it. -/
abbrev xArray (c : Dev nD) : Vec F S65536x1024 .f32 := V m c main_arg1

/-- The total after point `n`: the body's term applied band after band, from the stored zero. -/
def running (c : Dev nD) : (n : ℕ) → n < cfg0.N → Vec F S1x1 .f32
  | 0, h => k0_pay2 (oBlock m c ⟨0, h⟩) (xBlock m c ⟨0, h⟩) (k0_pay1 (F := F))
  | n + 1, h => k0_pay2 (oBlock m c ⟨n + 1, h⟩) (xBlock m c ⟨n + 1, h⟩) (running c n (Nat.lt_of_succ_lt h))

/-- After point `n` the output block and the scratch both hold the running total. -/
theorem outsAt_eq (c : Dev nD) : ∀ (n : ℕ) (h : n < cfg0.N), outsAt0 m c n h = (running m c n h, running m c n h)
  | 0, h =>
    (outsAt0_A m c ⟨0, h⟩ rfl).trans (Prod.ext
      (output_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) ((hcond0_0 ⟨0, h⟩).mpr (Nat.zero_mod _)) (oBlock m c ⟨0, h⟩) (xBlock m c ⟨0, h⟩))
      (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        scM0_0 (Memref.isWhole_whole _) ((hcond0_0 ⟨0, h⟩).mpr (Nat.zero_mod _)) (oBlock m c ⟨0, h⟩) (xBlock m c ⟨0, h⟩)))
  | n + 1, h => by
    have hN : cfg0.N = 64 := N_0
    have hB : ¬(⟨n + 1, h⟩ : Fin cfg0.N).val % 64 = 0 := by dsimp only; omega
    have ih := outsAt_eq c n (Nat.lt_of_succ_lt h)
    rw [outsAt0_B m c ⟨n + 1, h⟩ hB]
    refine Prod.ext ?_ ?_
    · dsimp only
      refine (output_later c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => hB ((hcond0_0 ⟨n + 1, h⟩).mp hh))
        (oBlock m c ⟨n + 1, h⟩) (xBlock m c ⟨n + 1, h⟩) (outsAt0 m c n (Nat.lt_of_succ_lt h)).2).trans ?_
      show k0_pay2 _ _ (outsAt0 m c n (Nat.lt_of_succ_lt h)).2 = k0_pay2 _ _ (running m c n (Nat.lt_of_succ_lt h))
      rw [ih]
    · dsimp only
      refine (scratch_later c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => hB ((hcond0_0 ⟨n + 1, h⟩).mp hh))
        (oBlock m c ⟨n + 1, h⟩) (xBlock m c ⟨n + 1, h⟩) (outsAt0 m c n (Nat.lt_of_succ_lt h)).2).trans ?_
      show k0_pay2 _ _ (outsAt0 m c n (Nat.lt_of_succ_lt h)).2 = k0_pay2 _ _ (running m c n (Nat.lt_of_succ_lt h))
      rw [ih]

/-- Where the two input windows sit at each point: block row `t`, block column 0. -/
theorem window_index_o : ∀ t : Fin cfg0.N, win0_0.index t 0 = t.val ∧ win0_0.index t 1 = 0 :=
  (by decide +kernel : ∀ t : Fin grid0.N, win0_0.index t 0 = t.val ∧ win0_0.index t 1 = 0)
theorem window_index_x : ∀ t : Fin cfg0.N, win0_1.index t 0 = t.val ∧ win0_1.index t 1 = 0 :=
  (by decide +kernel : ∀ t : Fin grid0.N, win0_1.index t 0 = t.val ∧ win0_1.index t 1 = 0)

/-- Entry `(r, l)` of the first input's block at point `t` is entry `(1024·t + r, l)` of the long array. -/
theorem oBlock_apply (c : Dev nD) (t : Fin cfg0.N) (ht : t.val < 64) (r l : Fin 1024) :
    oBlock m c t (ix2 r l) = oArray m c (ix2 (SquaredError.bandRow ⟨t.val, ht⟩ r) l) := by
  have hi := window_index_o t
  unfold oBlock iblk
  rw [View.read_apply]
  show V m c main_arg0 _ = V m c main_arg0 _
  congr 1
  funext d
  apply Fin.ext
  match d with
  | ⟨0, _⟩ => show win0_0.index t 0 * 1024 + 1 * r.val = 1024 * t.val + r.val; rw [hi.1]; omega
  | ⟨1, _⟩ => show win0_0.index t 1 * 1024 + 1 * l.val = l.val; rw [hi.2]; omega

/-- The same of the second input. -/
theorem xBlock_apply (c : Dev nD) (t : Fin cfg0.N) (ht : t.val < 64) (r l : Fin 1024) :
    xBlock m c t (ix2 r l) = xArray m c (ix2 (SquaredError.bandRow ⟨t.val, ht⟩ r) l) := by
  have hi := window_index_x t
  unfold xBlock iblk
  rw [View.read_apply]
  show V m c main_arg1 _ = V m c main_arg1 _
  congr 1
  funext d
  apply Fin.ext
  match d with
  | ⟨0, _⟩ => show win0_1.index t 0 * 1024 + 1 * r.val = 1024 * t.val + r.val; rw [hi.1]; omega
  | ⟨1, _⟩ => show win0_1.index t 1 * 1024 + 1 * l.val = l.val; rw [hi.2]; omega

end AnyInstance

/-! ## At the ideal instance: the running total is a sum of band totals -/

section AtIdeal

variable (m : (ℓ : Loc nD τ sig) → Buf (Elt Ideal) ℓ)

/-- The total of the squared differences over band `t` of two long arrays. -/
def bandTotal (o x : FVec Ideal S65536x1024 .f32) (t : Fin 64) : EReal :=
  ∑ r : Fin 1024, ∑ l : Fin 1024,
    (o (ix2 (SquaredError.bandRow t r) l) - x (ix2 (SquaredError.bandRow t r) l))
      * (o (ix2 (SquaredError.bandRow t r) l) - x (ix2 (SquaredError.bandRow t r) l))

/-- Band totals counted by a natural number; beyond the last band, nothing. -/
def bandTotalN (c : Dev nD) (t : ℕ) : EReal :=
  if ht : t < 64 then bandTotal (oArray m c) (xArray m c) ⟨t, ht⟩ else 0

/-- The block total at point `t` is band `t`'s total. -/
theorem blockTotal_eq (c : Dev nD) (t : Fin cfg0.N) (ht : t.val < 64) :
    BlockTotal.blockTotal (oBlock m c t) (xBlock m c t) = bandTotal (oArray m c) (xArray m c) ⟨t.val, ht⟩ := by
  unfold BlockTotal.blockTotal bandTotal
  refine Finset.sum_congr rfl fun r _ => Finset.sum_congr rfl fun l _ => ?_
  rw [oBlock_apply m c t ht r l, xBlock_apply m c t ht r l]

/-- The running total after point `n` is the sum of the totals of bands `0 … n`. -/
theorem running_apply (c : Dev nD) : ∀ (n : ℕ) (h : n < cfg0.N) (j : S1x1.Idx),
    running m c n h j = ∑ t ∈ Finset.range (n + 1), bandTotalN m c t
  | 0, h, j => by
    have h64 : (0 : ℕ) < 64 := by omega
    show k0_pay2 (F := Ideal) (oBlock m c ⟨0, h⟩) (xBlock m c ⟨0, h⟩) (k0_pay1 (F := Ideal)) j = _
    rw [BlockTotal.total_step, BlockTotal.stored_zero, zero_add, blockTotal_eq m c ⟨0, h⟩ h64, Finset.sum_range_one]
    unfold bandTotalN
    rw [dif_pos h64]
  | n + 1, h, j => by
    have h64 : n + 1 < 64 := lt_of_lt_of_eq h N_0
    show k0_pay2 (F := Ideal) (oBlock m c ⟨n + 1, h⟩) (xBlock m c ⟨n + 1, h⟩) (running m c n (Nat.lt_of_succ_lt h)) j = _
    rw [BlockTotal.total_step, running_apply c n (Nat.lt_of_succ_lt h) j, blockTotal_eq m c ⟨n + 1, h⟩ h64,
      Finset.sum_range_succ _ (n + 1)]
    congr 1
    unfold bandTotalN
    rw [dif_pos h64]

end AtIdeal

end Cert.KernelIdeal.Carried

end
-- ==== Proof.Closing.lean ====
/-
  The closing scalar algebra, shared by both programs.

  Both programs finish with the same handful of scalar operations on the host:
      (c₁ · log c₀ − c₂ · noise) − (c₄ · exp (c₃ · noise)) · total
  with the same five float words in the same places (c₀ = 2π as an f32 word, c₁ = −0.5·65536·1024, c₂ = 0.5·65536,
  c₃ = −2, c₄ = 0.5) and the same order of operands. They differ only in where `total` comes from, so the words
  are never evaluated: equal totals give equal results.
-/
import Idealize.ShloMosaic.PureOps.Ideal

noncomputable section

namespace SquaredError

open Idealize.ShloMosaic

/-- The shape of a scalar. -/
abbrev Scalar0 : Shape := ⟨0, ![]⟩

/-- The log-likelihood from the noise parameter and the total squared error, spelled as the programs spell it. -/
def closing (noise total : FVec Ideal Scalar0 .f32) : FVec Ideal Scalar0 .f32 :=
  subf
    (subf
      (mulf (constant (F := Ideal) Scalar0 .f32 0xCC000000#32) (Host.log (F := Ideal) (constant (F := Ideal) Scalar0 .f32 0x40C90FDB#32)))
      (mulf (constant (F := Ideal) Scalar0 .f32 0x47000000#32) noise))
    (mulf
      (mulf (constant (F := Ideal) Scalar0 .f32 0x3F000000#32)
        (Host.exp (F := Ideal) (mulf (constant (F := Ideal) Scalar0 .f32 0xC0000000#32) noise)))
      total)

end SquaredError

end
-- ==== Proof.KernelResult.lean ====
/-
  What the kernel program returns.

  The output window never moves and is written back once, after the last of the 64 grid points; its block is the
  whole one-element result array. So that array ends holding the running total after point 63, which at the ideal
  instance is the sum of all 64 band totals. The host then reshapes it to a scalar and applies the closing algebra
  with the noise parameter, which no operation writes.
-/
import proofs.«165593_j14628658610180_1_alg».proof.Proof.Running
import proofs.«165593_j14628658610180_1_alg».proof.Proof.Closing
import Idealize.ShloMosaic.Lib.StableHlo.Run
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Carried

section AnyInstance

variable {F : FTy → Type} [FloatOps F]
variable (m : (ℓ : Loc nD τ sig) → Buf (Elt F) ℓ) (ρ : Dev nD → PrngReg)

theorem last_lt : 63 < cfg0.N := by rw [show cfg0.N = 64 from N_0]; omega

/-- The last grid point. -/
def lastPoint : Fin cfg0.N := ⟨63, last_lt⟩

/-- The running total after the last point, as contents of the one-element result array. -/
abbrev total (c : Dev nD) : Buf (Elt F) ((c : Thread nD τ).loc main_v0) := running m c 63 last_lt

/-- The one-element array has one index. -/
theorem one_index (a b : S1x1.Idx) : a = b := by
  funext d
  apply Fin.ext
  match d with
  | ⟨0, _⟩ => have := idx2_lt0 a; have := idx2_lt0 b; show (a 0).val = (b 0).val; omega
  | ⟨1, _⟩ => have := idx2_lt1 a; have := idx2_lt1 b; show (a 1).val = (b 1).val; omega

/-- Only the last point writes the output window back, and what it writes is the running total: the window's block
    there is the whole array, read through zero offsets. -/
theorem flushed_total (c : Dev nD) (t : Fin cfg0.N) (hf : (cfg0.win 2).flush t = true) :
    (dats m 0 c).flushed 2 t = ((cfg0.win 2).blk t).view.read (Elt F) (total m c) := by
  have hN : cfg0.N = 64 := N_0
  have h63 : t.val = 63 := by have := (flush0_2 t).mp hf; have := t.isLt; omega
  obtain rfl : t = lastPoint := Fin.ext h63
  show (cfg0.win 2).cut (grid0.coords lastPoint) ((dats m 0 c).after 2 lastPoint) = _
  rw [after0_2, outsAt_eq]
  have hoff : (fun a => win0_2.index lastPoint a * main_v0.ty.shape.size a) = fun _ => 0 :=
    funext fun a => by fin_cases a <;> decide +kernel
  exact (Memref.read_access_unit_zero (Elt F) main_v0 hoff (fun a => by rw [congrFun hoff a]; simp) (total m c)).symm

/-- The last point's block holds the array's one index. -/
theorem last_block_covers (c : Dev nD) (i : S1x1.Idx) : i ∈ ((cfg0.win 2).blk lastPoint).view.set := by
  have e : ((cfg0.win 2).blk lastPoint).view.emb (ix2 (0 : Fin 1) (0 : Fin 1)) = i := one_index _ _
  exact e ▸ ((cfg0.win 2).blk lastPoint).view.emb_mem_set _

/-- So the result array ends at the running total after the last point. -/
theorem final_total (c : Dev nD) : (dats m 0 c).arrAt 2 cfg0.N = total m c :=
  (dats m 0 c).arrAt_eq_of_cover 2 (total m c) (flushed_total m c) fun i =>
    ⟨lastPoint, (flush0_2 lastPoint).mpr rfl, last_block_covers c i⟩

end AnyInstance

section AtIdeal

variable (m : (ℓ : Loc nD τ sig) → Buf (Elt Ideal) ℓ) (ρ : Dev nD → PrngReg)

/-- The total squared error of the two long arrays, band by band. -/
def allBands (c : Dev nD) : EReal := ∑ t : Fin 64, bandTotal (oArray m c) (xArray m c) t

/-- The result array's one entry is the sum of all 64 band totals. -/
theorem total_apply (c : Dev nD) (j : S1x1.Idx) : total m c j = allBands m c := by
  show running m c 63 last_lt j = _
  rw [running_apply m c 63 last_lt j]
  exact SquaredError.sum_range_64 (fun t => bandTotal (oArray m c) (xArray m c) t)

/-- What the program returns: the closing algebra of the noise parameter and the total, reshaped to a scalar. -/
def result (c : Dev nD) : Buf (Elt Ideal) ((c : Thread nD τ).loc main_v10) :=
  SquaredError.closing (m ((c : Thread nD τ).loc main_arg2)) (shapeCast S_ (total m c) shapeCasts_S1x1_S_)

/-- The host operations after the region compute it from the result array. -/
theorem tail_result (c : Dev nD) :
    Pipeline.afterTail₀ cfgs (dats m) 0 (V0 m) [hostOps1] c main_v10 = result m c := by
  unfold Pipeline.afterTail₀
  show StableHlo.after hostOps1 _ (Proc.devRef .tc main_v10) = _
  after_results
  have hTotal : Pipeline.withArrays (cfgs 0).spec c (V0 m c) (fun w => (dats m 0 c).arrAt w (cfgs 0).N)
      (Proc.devRef .tc main_v0) = total m c :=
    (Pipeline.withArrays_arr spec0 launch0.win.arr_inj c _ _ 2).trans (final_total m c)
  have hNoise : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [hTotal, hNoise]
  rfl

/-- The kernel program's run, read: its result at the closing algebra of the noise parameter and the total of all
    bands, its three arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end AtIdeal

end Cert.KernelIdeal.Result

end
-- ==== Proof.RefTotal.lean ====
/-
  What the reference program returns.

  The reference forms the pointwise difference and square of the two long arrays, adds every entry at once starting
  from the zero word, and applies the closing algebra. At the ideal instance a host sum into a scalar is its initial
  value, here 0, plus the sum over every index; regrouped band by band this is the total the kernel accumulates.
-/
import proofs.«165593_j14628658610180_1_alg».proof.Proof.Gen.ReferenceIdeal.Read
import proofs.«165593_j14628658610180_1_alg».proof.Proof.SumRegroup
import proofs.«165593_j14628658610180_1_alg».proof.Proof.Closing
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx

namespace Cert.ReferenceIdeal.RefTotal

open Cert.ReferenceIdeal Cert.ReferenceIdeal.Gen

/-- The host's sum of the squared differences over the whole arrays. -/
abbrev hostTotal (o x : FVec Ideal S65536x1024 .f32) : FVec Ideal S_ .f32 :=
  Host.reduceAdd (F := Ideal) (mulf (subf o x) (subf o x)) (constant (F := Ideal) S_ .f32 0x00000000#32)
    reducesTo_S65536x1024_S_d0_1 h_S_

/-- It is the sum over the 64 bands of the sums over each band's rows and lanes. -/
theorem hostTotal_apply (o x : FVec Ideal S65536x1024 .f32) (i : S_.Idx) :
    hostTotal o x i = ∑ t : Fin 64, ∑ r : Fin 1024, ∑ l : Fin 1024,
      (o (ix2 (SquaredError.bandRow t r) l) - x (ix2 (SquaredError.bandRow t r) l))
        * (o (ix2 (SquaredError.bandRow t r) l) - x (ix2 (SquaredError.bandRow t r) l)) := by
  refine (Cert.ReferenceIdeal.Read.val_main_v2_apply o x i).trans ?_
  show Ideal.ofBits .f32 0x00000000#32 + ∑ j : S65536x1024.Idx, (o j - x j) * (o j - x j) = _
  rw [Ideal.ofBits_zero_f32, zero_add]
  exact SquaredError.sum_all_by_band fun j => (o j - x j) * (o j - x j)

/-- The term the reference's run ends at is the closing algebra of the noise parameter and that total. -/
theorem result_eq (o x : FVec Ideal S65536x1024 .f32) (noise : FVec Ideal S_ .f32) :
    subf (subf (mulf (constant (F := Ideal) S_ .f32 0xCC000000#32) (Host.log (F := Ideal) (constant (F := Ideal) S_ .f32 0x40C90FDB#32))) (mulf (constant (F := Ideal) S_ .f32 0x47000000#32) noise))
      (mulf (mulf (constant (F := Ideal) S_ .f32 0x3F000000#32) (Host.exp (F := Ideal) (mulf (constant (F := Ideal) S_ .f32 0xC0000000#32) noise))) (hostTotal o x))
      = SquaredError.closing noise (hostTotal o x) := rfl

end Cert.ReferenceIdeal.RefTotal

end
-- ==== Proof.lean ====
/-
  The kernel streams two [65536, 1024] arrays `o`, `x` through 64 bands of 1024 rows, keeps the running total of
  `(o − x)²` in a one-element scratch (zeroed at the first band), and hands the final total to a few scalar
  operations on the host: −0.5·n·d·log 2π − 0.5·n·noise − 0.5·exp(−2·noise)·total. The reference computes the
  same expression with the total taken as one sum over the whole arrays.

  Over the extended reals the two totals are one number: the kernel's is 0 + Σ_t (Σ_r Σ_l …) with the bands taken in
  order, the reference's is 0 + Σ over every (row, lane); row 1024·t + r is row r of band t, and addition is
  commutative and associative, at the infinities too. The scalar tail is the same text on both sides and is never
  opened. No rewrite was made when the kernel was idealized, so that conjunct is trivial.
-/
import proofs.«165593_j14628658610180_1_alg».proof.Defs
import proofs.«165593_j14628658610180_1_alg».proof.Proof.Gen.Kernel
import proofs.«165593_j14628658610180_1_alg».proof.Proof.Gen.Kernel.Skeleton
import proofs.«165593_j14628658610180_1_alg».proof.Proof.Gen.Kernel.Launch
import proofs.«165593_j14628658610180_1_alg».proof.Proof.Gen.Kernel.Points
import proofs.«165593_j14628658610180_1_alg».proof.Proof.Gen.Kernel.Frame
import proofs.«165593_j14628658610180_1_alg».proof.Proof.Gen.KernelIdeal
import proofs.«165593_j14628658610180_1_alg».proof.Proof.Gen.KernelIdeal.Skeleton
import proofs.«165593_j14628658610180_1_alg».proof.Proof.Gen.KernelIdeal.Launch
import proofs.«165593_j14628658610180_1_alg».proof.Proof.Gen.KernelIdeal.Points
import proofs.«165593_j14628658610180_1_alg».proof.Proof.Gen.KernelIdeal.Frame
import proofs.«165593_j14628658610180_1_alg».proof.Proof.Gen.ReferenceIdeal
import proofs.«165593_j14628658610180_1_alg».proof.Proof.Gen.Pre_finite_inputs
import proofs.«165593_j14628658610180_1_alg».proof.Proof.Gen.ReferenceIdeal.Run
import proofs.«165593_j14628658610180_1_alg».proof.Proof.Gen.ReferenceIdeal.Read
import proofs.«165593_j14628658610180_1_alg».proof.Proof.KernelResult
import proofs.«165593_j14628658610180_1_alg».proof.Proof.RefTotal
import Idealize.ShloMosaic.Adequacy
import Idealize.ShloMosaic.Init

noncomputable section

open Idealize.ShloMosaic Idealize.ShloMosaic.TcCoe Idealize.SL.Sem

namespace Cert.Proof.Totals

/-- The two totals agree: the reference's one sum over the arrays is the kernel's running total after the last
    band, read as a scalar. -/
theorem same_total (m : (ℓ : Loc Cert.KernelIdeal.nD Cert.KernelIdeal.τ Cert.KernelIdeal.sig) → Buf (Elt Ideal) ℓ)
    (c : Dev Cert.KernelIdeal.nD) :
    Cert.ReferenceIdeal.RefTotal.hostTotal
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S_ (Cert.KernelIdeal.Result.total m c) Cert.KernelIdeal.Gen.shapeCasts_S1x1_S_ := by
  funext i
  rw [Cert.ReferenceIdeal.RefTotal.hostTotal_apply]
  unfold shapeCast
  exact (Cert.KernelIdeal.Result.total_apply m c _).symm

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the closing algebra of the same noise parameter and of totals that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.RefTotal.result_eq _ _ _).trans ?_
  exact congrArg (SquaredError.closing _) (same_total m c)

end Cert.Proof.Totals

namespace Cert.Proof

theorem claim : Cert.Claim := ⟨Cert.Kernel.Gen.facts, Cert.KernelIdeal.Gen.facts, Cert.ReferenceIdeal.Gen.facts, Cert.Pre_finite_inputs.Gen.facts,
  Totals.frame_kernel, Totals.frame_kernelIdeal, Totals.frame_referenceIdeal, Totals.preserves, Totals.algebraic⟩

end Cert.Proof

end
